-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x9216 : Shape := ⟨2, ![64, 9216]⟩
abbrev S5x5 : Shape := ⟨2, ![5, 5]⟩
abbrev S_ : Shape := ⟨0, ![]⟩

class Facts : Prop where
  bcast_S_S64x9216 : S_.BroadcastsInDim S64x9216 (![] : Fin 0 → Fin S64x9216.rank)
  reducesTo_S64x9216_S_d0_1 : S64x9216.ReducesTo [0, 1] S_
  h_S_ : 0 < S_.numel
  bcast_S_S5x5 : S_.BroadcastsInDim S5x5 (![] : Fin 0 → Fin S5x5.rank)
  reducesTo_S5x5_S_d0_1 : S5x5.ReducesTo [0, 1] S_

variable [Facts]

def fn {F : FTy → Type} [FloatOps F] (main_arg0 : FVec F S64x9216 .f32) (main_arg1 : FVec F S5x5 .f32) : IVec S_ 1 :=
  let main_v0 : FVec F S64x9216 .f32 := Host.absf main_arg0
  let main_cst : FVec F S_ .f32 := constant S_ .f32 0x7F800000#32
  let main_v1 : FVec F S64x9216 .f32 := broadcastInDim S64x9216 ![] bcast_S_S64x9216 main_cst
  let main_v2 : IVec S64x9216 1 := cmpf .olt main_v0 main_v1
  let main_c : IVec S_ 1 := constantI S_ 1 1#1
  let main_v3 : IVec S_ 1 := (fun x v => Host.reduce IntOp.andi x v reducesTo_S64x9216_S_d0_1 h_S_) main_v2 main_c
  let main_v4 : FVec F S5x5 .f32 := Host.absf main_arg1
  let main_cst_0 : FVec F S_ .f32 := constant S_ .f32 0x7F800000#32
  let main_v5 : FVec F S5x5 .f32 := broadcastInDim S5x5 ![] bcast_S_S5x5 main_cst_0
  let main_v6 : IVec S5x5 1 := cmpf .olt main_v4 main_v5
  let main_c_1 : IVec S_ 1 := constantI S_ 1 1#1
  let main_v7 : IVec S_ 1 := (fun x v => Host.reduce IntOp.andi x v reducesTo_S5x5_S_d0_1 h_S_) main_v6 main_c_1
  let main_v8 : IVec S_ 1 := andi main_v3 main_v7
  main_v8
-- ==== Kernel.lean ====
abbrev S64x9216 : Shape := ⟨2, ![64, 9216]⟩
abbrev S5x5 : Shape := ⟨2, ![5, 5]⟩
abbrev S64x96x96 : Shape := ⟨3, ![64, 96, 96]⟩
abbrev S64x92x92 : Shape := ⟨3, ![64, 92, 92]⟩
abbrev S1x1 : Shape := ⟨2, ![1, 1]⟩
abbrev S64x8464 : Shape := ⟨2, ![64, 8464]⟩

abbrev nBuf : Space → Nat
  | .hbm => 5
  | .vmem => 3
  | .smem => 0
  | _ => 0

abbrev bufTy : (tb : Table) → Fin (tcTables nBuf tb) → BufTy
  | .hbm, ⟨0, _⟩ => ⟨S64x9216, .f32⟩
  | .hbm, ⟨1, _⟩ => ⟨S5x5, .f32⟩
  | .hbm, ⟨2, _⟩ => ⟨S64x96x96, .f32⟩
  | .hbm, ⟨3, _⟩ => ⟨S64x92x92, .f32⟩
  | .hbm, ⟨4, _⟩ => ⟨S64x8464, .f32⟩
  | .local _ .vmem, ⟨0, _⟩ => ⟨S64x96x96, .f32⟩
  | .local _ .vmem, ⟨1, _⟩ => ⟨S5x5, .f32⟩
  | .local _ .vmem, ⟨2, _⟩ => ⟨S64x92x92, .f32⟩
  | _, _ => ⟨S64x9216, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S64x96x96 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S5x5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x92x92 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S64x9216_S64x96x96 : S64x9216.ShapeCasts S64x96x96
  inb_S5x5_S1x1_0_0 : ∀ a, (![0, 0] : Fin 2 → Nat) a + S1x1.size a ≤ S5x5.size a
  h_S1x1 : 0 < S1x1.numel
  inpos_S1x1_p0_0 : ∀ a, (![0, 0] : Fin 2 → Nat) a < S1x1.size a
  inb_S64x96x96_S64x92x92_0_0_0 : ∀ a, (![0, 0, 0] : Fin 3 → Nat) a + S64x92x92.size a ≤ S64x96x96.size a
  h_S64x92x92 : 0 < S64x92x92.numel
  shapeCasts_S64x92x92_S64x92x92 : S64x92x92.ShapeCasts S64x92x92
  inb_S5x5_S1x1_0_1 : ∀ a, (![0, 1] : Fin 2 → Nat) a + S1x1.size a ≤ S5x5.size a
  inb_S64x96x96_S64x92x92_0_0_1 : ∀ a, (![0, 0, 1] : Fin 3 → Nat) a + S64x92x92.size a ≤ S64x96x96.size a
  inb_S5x5_S1x1_0_2 : ∀ a, (![0, 2] : Fin 2 → Nat) a + S1x1.size a ≤ S5x5.size a
  inb_S64x96x96_S64x92x92_0_0_2 : ∀ a, (![0, 0, 2] : Fin 3 → Nat) a + S64x92x92.size a ≤ S64x96x96.size a
  inb_S5x5_S1x1_0_3 : ∀ a, (![0, 3] : Fin 2 → Nat) a + S1x1.size a ≤ S5x5.size a
  inb_S64x96x96_S64x92x92_0_0_3 : ∀ a, (![0, 0, 3] : Fin 3 → Nat) a + S64x92x92.size a ≤ S64x96x96.size a
  inb_S5x5_S1x1_0_4 : ∀ a, (![0, 4] : Fin 2 → Nat) a + S1x1.size a ≤ S5x5.size a
  inb_S64x96x96_S64x92x92_0_0_4 : ∀ a, (![0, 0, 4] : Fin 3 → Nat) a + S64x92x92.size a ≤ S64x96x96.size a
  inb_S5x5_S1x1_1_0 : ∀ a, (![1, 0] : Fin 2 → Nat) a + S1x1.size a ≤ S5x5.size a
  inb_S64x96x96_S64x92x92_0_1_0 : ∀ a, (![0, 1, 0] : Fin 3 → Nat) a + S64x92x92.size a ≤ S64x96x96.size a
  inb_S5x5_S1x1_1_1 : ∀ a, (![1, 1] : Fin 2 → Nat) a + S1x1.size a ≤ S5x5.size a
  inb_S64x96x96_S64x92x92_0_1_1 : ∀ a, (![0, 1, 1] : Fin 3 → Nat) a + S64x92x92.size a ≤ S64x96x96.size a
  inb_S5x5_S1x1_1_2 : ∀ a, (![1, 2] : Fin 2 → Nat) a + S1x1.size a ≤ S5x5.size a
  inb_S64x96x96_S64x92x92_0_1_2 : ∀ a, (![0, 1, 2] : Fin 3 → Nat) a + S64x92x92.size a ≤ S64x96x96.size a
  inb_S5x5_S1x1_1_3 : ∀ a, (![1, 3] : Fin 2 → Nat) a + S1x1.size a ≤ S5x5.size a
  inb_S64x96x96_S64x92x92_0_1_3 : ∀ a, (![0, 1, 3] : Fin 3 → Nat) a + S64x92x92.size a ≤ S64x96x96.size a
  inb_S5x5_S1x1_1_4 : ∀ a, (![1, 4] : Fin 2 → Nat) a + S1x1.size a ≤ S5x5.size a
  inb_S64x96x96_S64x92x92_0_1_4 : ∀ a, (![0, 1, 4] : Fin 3 → Nat) a + S64x92x92.size a ≤ S64x96x96.size a
  inb_S5x5_S1x1_2_0 : ∀ a, (![2, 0] : Fin 2 → Nat) a + S1x1.size a ≤ S5x5.size a
  inb_S64x96x96_S64x92x92_0_2_0 : ∀ a, (![0, 2, 0] : Fin 3 → Nat) a + S64x92x92.size a ≤ S64x96x96.size a
  inb_S5x5_S1x1_2_1 : ∀ a, (![2, 1] : Fin 2 → Nat) a + S1x1.size a ≤ S5x5.size a
  inb_S64x96x96_S64x92x92_0_2_1 : ∀ a, (![0, 2, 1] : Fin 3 → Nat) a + S64x92x92.size a ≤ S64x96x96.size a
  inb_S5x5_S1x1_2_2 : ∀ a, (![2, 2] : Fin 2 → Nat) a + S1x1.size a ≤ S5x5.size a
  inb_S64x96x96_S64x92x92_0_2_2 : ∀ a, (![0, 2, 2] : Fin 3 → Nat) a + S64x92x92.size a ≤ S64x96x96.size a
  inb_S5x5_S1x1_2_3 : ∀ a, (![2, 3] : Fin 2 → Nat) a + S1x1.size a ≤ S5x5.size a
  inb_S64x96x96_S64x92x92_0_2_3 : ∀ a, (![0, 2, 3] : Fin 3 → Nat) a + S64x92x92.size a ≤ S64x96x96.size a
  inb_S5x5_S1x1_2_4 : ∀ a, (![2, 4] : Fin 2 → Nat) a + S1x1.size a ≤ S5x5.size a
  inb_S64x96x96_S64x92x92_0_2_4 : ∀ a, (![0, 2, 4] : Fin 3 → Nat) a + S64x92x92.size a ≤ S64x96x96.size a
  inb_S5x5_S1x1_3_0 : ∀ a, (![3, 0] : Fin 2 → Nat) a + S1x1.size a ≤ S5x5.size a
  inb_S64x96x96_S64x92x92_0_3_0 : ∀ a, (![0, 3, 0] : Fin 3 → Nat) a + S64x92x92.size a ≤ S64x96x96.size a
  inb_S5x5_S1x1_3_1 : ∀ a, (![3, 1] : Fin 2 → Nat) a + S1x1.size a ≤ S5x5.size a
  inb_S64x96x96_S64x92x92_0_3_1 : ∀ a, (![0, 3, 1] : Fin 3 → Nat) a + S64x92x92.size a ≤ S64x96x96.size a
  inb_S5x5_S1x1_3_2 : ∀ a, (![3, 2] : Fin 2 → Nat) a + S1x1.size a ≤ S5x5.size a
  inb_S64x96x96_S64x92x92_0_3_2 : ∀ a, (![0, 3, 2] : Fin 3 → Nat) a + S64x92x92.size a ≤ S64x96x96.size a
  inb_S5x5_S1x1_3_3 : ∀ a, (![3, 3] : Fin 2 → Nat) a + S1x1.size a ≤ S5x5.size a
  inb_S64x96x96_S64x92x92_0_3_3 : ∀ a, (![0, 3, 3] : Fin 3 → Nat) a + S64x92x92.size a ≤ S64x96x96.size a
  inb_S5x5_S1x1_3_4 : ∀ a, (![3, 4] : Fin 2 → Nat) a + S1x1.size a ≤ S5x5.size a
  inb_S64x96x96_S64x92x92_0_3_4 : ∀ a, (![0, 3, 4] : Fin 3 → Nat) a + S64x92x92.size a ≤ S64x96x96.size a
  inb_S5x5_S1x1_4_0 : ∀ a, (![4, 0] : Fin 2 → Nat) a + S1x1.size a ≤ S5x5.size a
  inb_S64x96x96_S64x92x92_0_4_0 : ∀ a, (![0, 4, 0] : Fin 3 → Nat) a + S64x92x92.size a ≤ S64x96x96.size a
  inb_S5x5_S1x1_4_1 : ∀ a, (![4, 1] : Fin 2 → Nat) a + S1x1.size a ≤ S5x5.size a
  inb_S64x96x96_S64x92x92_0_4_1 : ∀ a, (![0, 4, 1] : Fin 3 → Nat) a + S64x92x92.size a ≤ S64x96x96.size a
  inb_S5x5_S1x1_4_2 : ∀ a, (![4, 2] : Fin 2 → Nat) a + S1x1.size a ≤ S5x5.size a
  inb_S64x96x96_S64x92x92_0_4_2 : ∀ a, (![0, 4, 2] : Fin 3 → Nat) a + S64x92x92.size a ≤ S64x96x96.size a
  inb_S5x5_S1x1_4_3 : ∀ a, (![4, 3] : Fin 2 → Nat) a + S1x1.size a ≤ S5x5.size a
  inb_S64x96x96_S64x92x92_0_4_3 : ∀ a, (![0, 4, 3] : Fin 3 → Nat) a + S64x92x92.size a ≤ S64x96x96.size a
  inb_S5x5_S1x1_4_4 : ∀ a, (![4, 4] : Fin 2 → Nat) a + S1x1.size a ≤ S5x5.size a
  inb_S64x96x96_S64x92x92_0_4_4 : ∀ a, (![0, 4, 4] : Fin 3 → Nat) a + S64x92x92.size a ≤ S64x96x96.size a
  inb_S64x92x92_S64x92x92_0_0_0 : ∀ a, (![0, 0, 0] : Fin 3 → Nat) a + S64x92x92.size a ≤ S64x92x92.size a
  shapeCasts_S64x92x92_S64x8464 : S64x92x92.ShapeCasts S64x8464
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x96x96.size a ≤ S64x96x96.size a
  hwx0_0 : ∀ i : grid0.Coords, EltTy.bits .f32 = 32 ∨ (Rect.block (s := S64x96x96) S64x96x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x5.size a ≤ S5x5.size a
  hwx0_1 : ∀ i : grid0.Coords, EltTy.bits .f32 = 32 ∨ (Rect.block (s := S5x5) S5x5.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x92x92.size a ≤ S64x92x92.size a
  hwx0_2 : ∀ i : grid0.Coords, EltTy.bits .f32 = 32 ∨ (Rect.block (s := S64x92x92) S64x92x92.size (cc0_transform_2 i) (hinb0_2 i)).WholeWords (EltTy.packing .f32)

variable [Facts₀]

abbrev win0_0 : Pipeline.Window sig grid0 :=
  Pipeline.Window.ofSpec (Memref.whole main_v0) S64x96x96.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5x5.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x92x92.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x9216 : Shape := ⟨2, ![64, 9216]⟩
abbrev S5x5 : Shape := ⟨2, ![5, 5]⟩
abbrev S92 : Shape := ⟨1, ![92]⟩
abbrev S92x92 : Shape := ⟨2, ![92, 92]⟩
abbrev S5 : Shape := ⟨1, ![5]⟩
abbrev S92x92x1x1 : Shape := ⟨4, ![92, 92, 1, 1]⟩
abbrev S1x1x5x5 : Shape := ⟨4, ![1, 1, 5, 5]⟩
abbrev S92x92x5x5 : Shape := ⟨4, ![92, 92, 5, 5]⟩
abbrev S_ : Shape := ⟨0, ![]⟩
abbrev S8464x25 : Shape := ⟨2, ![8464, 25]⟩
abbrev S8464 : Shape := ⟨1, ![8464]⟩
abbrev S8464x1 : Shape := ⟨2, ![8464, 1]⟩
abbrev S25 : Shape := ⟨1, ![25]⟩
abbrev S8464x9216 : Shape := ⟨2, ![8464, 9216]⟩
abbrev S8464x25x1 : Shape := ⟨3, ![8464, 25, 1]⟩
abbrev S8464x25x2 : Shape := ⟨3, ![8464, 25, 2]⟩
abbrev S9216x8464 : Shape := ⟨2, ![9216, 8464]⟩
abbrev S64x8464 : Shape := ⟨2, ![64, 8464]⟩

abbrev nBuf : Space → Nat
  | .hbm => 52
  | .vmem => 0
  | .smem => 0
  | _ => 0

abbrev bufTy : (tb : Table) → Fin (tcTables nBuf tb) → BufTy
  | .hbm, ⟨0, _⟩ => ⟨S64x9216, .f32⟩
  | .hbm, ⟨1, _⟩ => ⟨S5x5, .f32⟩
  | .hbm, ⟨2, _⟩ => ⟨S92, .i32⟩
  | .hbm, ⟨3, _⟩ => ⟨S92, .i32⟩
  | .hbm, ⟨4, _⟩ => ⟨S92x92, .i32⟩
  | .hbm, ⟨5, _⟩ => ⟨S92x92, .i32⟩
  | .hbm, ⟨6, _⟩ => ⟨S5, .i32⟩
  | .hbm, ⟨7, _⟩ => ⟨S5, .i32⟩
  | .hbm, ⟨8, _⟩ => ⟨S5x5, .i32⟩
  | .hbm, ⟨9, _⟩ => ⟨S5x5, .i32⟩
  | .hbm, ⟨10, _⟩ => ⟨S92x92x1x1, .i32⟩
  | .hbm, ⟨11, _⟩ => ⟨S1x1x5x5, .i32⟩
  | .hbm, ⟨12, _⟩ => ⟨S92x92x5x5, .i32⟩
  | .hbm, ⟨13, _⟩ => ⟨S92x92x5x5, .i32⟩
  | .hbm, ⟨14, _⟩ => ⟨S92x92x5x5, .i32⟩
  | .hbm, ⟨15, _⟩ => ⟨S_, .i32⟩
  | .hbm, ⟨16, _⟩ => ⟨S92x92x5x5, .i32⟩
  | .hbm, ⟨17, _⟩ => ⟨S92x92x5x5, .i32⟩
  | .hbm, ⟨18, _⟩ => ⟨S92x92x1x1, .i32⟩
  | .hbm, ⟨19, _⟩ => ⟨S1x1x5x5, .i32⟩
  | .hbm, ⟨20, _⟩ => ⟨S92x92x5x5, .i32⟩
  | .hbm, ⟨21, _⟩ => ⟨S92x92x5x5, .i32⟩
  | .hbm, ⟨22, _⟩ => ⟨S92x92x5x5, .i32⟩
  | .hbm, ⟨23, _⟩ => ⟨S92x92x5x5, .i32⟩
  | .hbm, ⟨24, _⟩ => ⟨S8464x25, .i32⟩
  | .hbm, ⟨25, _⟩ => ⟨S8464, .i32⟩
  | .hbm, ⟨26, _⟩ => ⟨S8464x1, .i32⟩
  | .hbm, ⟨27, _⟩ => ⟨S25, .f32⟩
  | .hbm, ⟨28, _⟩ => ⟨S8464x25, .f32⟩
  | .hbm, ⟨29, _⟩ => ⟨S_, .f32⟩
  | .hbm, ⟨30, _⟩ => ⟨S8464x9216, .f32⟩
  | .hbm, ⟨31, _⟩ => ⟨S_, .i32⟩
  | .hbm, ⟨32, _⟩ => ⟨S8464x1, .i32⟩
  | .hbm, ⟨33, _⟩ => ⟨S8464x1, .i1⟩
  | .hbm, ⟨34, _⟩ => ⟨S_, .i32⟩
  | .hbm, ⟨35, _⟩ => ⟨S8464x1, .i32⟩
  | .hbm, ⟨36, _⟩ => ⟨S8464x1, .i32⟩
  | .hbm, ⟨37, _⟩ => ⟨S8464x1, .i32⟩
  | .hbm, ⟨38, _⟩ => ⟨S_, .i32⟩
  | .hbm, ⟨39, _⟩ => ⟨S8464x25, .i32⟩
  | .hbm, ⟨40, _⟩ => ⟨S8464x25, .i1⟩
  | .hbm, ⟨41, _⟩ => ⟨S_, .i32⟩
  | .hbm, ⟨42, _⟩ => ⟨S8464x25, .i32⟩
  | .hbm, ⟨43, _⟩ => ⟨S8464x25, .i32⟩
  | .hbm, ⟨44, _⟩ => ⟨S8464x25, .i32⟩
  | .hbm, ⟨45, _⟩ => ⟨S8464x25, .i32⟩
  | .hbm, ⟨46, _⟩ => ⟨S8464x25x1, .i32⟩
  | .hbm, ⟨47, _⟩ => ⟨S8464x25x1, .i32⟩
  | .hbm, ⟨48, _⟩ => ⟨S8464x25x2, .i32⟩
  | .hbm, ⟨49, _⟩ => ⟨S8464x9216, .f32⟩
  | .hbm, ⟨50, _⟩ => ⟨S9216x8464, .f32⟩
  | .hbm, ⟨51, _⟩ => ⟨S64x8464, .f32⟩
  | _, _ => ⟨S64x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_c : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_cst : Ref sig .tc := ⟨.hbm, 29, rfl⟩
abbrev main_v26 : Ref sig .tc := ⟨.hbm, 30, rfl⟩
abbrev main_c_0 : Ref sig .tc := ⟨.hbm, 31, rfl⟩
abbrev main_v27 : Ref sig .tc := ⟨.hbm, 32, rfl⟩
abbrev main_v28 : Ref sig .tc := ⟨.hbm, 33, rfl⟩
abbrev main_c_1 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_c_2 : Ref sig .tc := ⟨.hbm, 38, rfl⟩
abbrev main_v32 : Ref sig .tc := ⟨.hbm, 39, rfl⟩
abbrev main_v33 : Ref sig .tc := ⟨.hbm, 40, rfl⟩
abbrev main_c_3 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩

abbrev nD : Nat := 1
abbrev τ : Topo := Topo.v7x

variable {F : FTy → Type} [FloatOps F]

class Facts₀ : Prop where
  bcast_S92_S92x92_0 : S92.BroadcastsInDim S92x92 (![0] : Fin 1 → Fin S92x92.rank)
  bcast_S92_S92x92_1 : S92.BroadcastsInDim S92x92 (![1] : Fin 1 → Fin S92x92.rank)
  bcast_S5_S5x5_0 : S5.BroadcastsInDim S5x5 (![0] : Fin 1 → Fin S5x5.rank)
  bcast_S5_S5x5_1 : S5.BroadcastsInDim S5x5 (![1] : Fin 1 → Fin S5x5.rank)
  bcast_S92x92_S92x92x1x1_0_1 : S92x92.BroadcastsInDim S92x92x1x1 (![0, 1] : Fin 2 → Fin S92x92x1x1.rank)
  bcast_S5x5_S1x1x5x5_2_3 : S5x5.BroadcastsInDim S1x1x5x5 (![2, 3] : Fin 2 → Fin S1x1x5x5.rank)
  bcast_S92x92x1x1_S92x92x5x5_0_1_2_3 : S92x92x1x1.BroadcastsInDim S92x92x5x5 (![0, 1, 2, 3] : Fin 4 → Fin S92x92x5x5.rank)
  bcast_S1x1x5x5_S92x92x5x5_0_1_2_3 : S1x1x5x5.BroadcastsInDim S92x92x5x5 (![0, 1, 2, 3] : Fin 4 → Fin S92x92x5x5.rank)
  bcast_S_S92x92x5x5 : S_.BroadcastsInDim S92x92x5x5 (![] : Fin 0 → Fin S92x92x5x5.rank)
  shapeCasts_S92x92x5x5_S8464x25 : S92x92x5x5.ShapeCasts S8464x25
  bcast_S8464_S8464x1_0 : S8464.BroadcastsInDim S8464x1 (![0] : Fin 1 → Fin S8464x1.rank)
  shapeCasts_S5x5_S25 : S5x5.ShapeCasts S25
  bcast_S25_S8464x25_1 : S25.BroadcastsInDim S8464x25 (![1] : Fin 1 → Fin S8464x25.rank)
  bcast_S_S8464x9216 : S_.BroadcastsInDim S8464x9216 (![] : Fin 0 → Fin S8464x9216.rank)
  bcast_S_S8464x1 : S_.BroadcastsInDim S8464x1 (![] : Fin 0 → Fin S8464x1.rank)
  bcast_S_S8464x25 : S_.BroadcastsInDim S8464x25 (![] : Fin 0 → Fin S8464x25.rank)
  bcast_S8464x1_S8464x25_0_1 : S8464x1.BroadcastsInDim S8464x25 (![0, 1] : Fin 2 → Fin S8464x25.rank)
  bcast_S8464x25_S8464x25x1_0_1 : S8464x25.BroadcastsInDim S8464x25x1 (![0, 1] : Fin 2 → Fin S8464x25x1.rank)
  concatenates_S8464x25x1_S8464x25x1_S8464x25x2_d2 : Shape.Concatenates [S8464x25x1, S8464x25x1] S8464x25x2 2
  transposes_S8464x9216_S9216x8464_1_0 : S8464x9216.Transposes [1, 0] S9216x8464
  scatter_S8464x9216_S8464x25x2_S8464x25_n_01_01_2_wf : ScatterDims.WF S8464x9216 S8464x25x2 S8464x25 [] [0, 1] [0, 1] 2
  dot_S64x9216_S9216x8464_S64x8464_1_0_0_1_n_n_wf : DotDims.WF S64x9216 S9216x8464 S64x8464 [1] [0] [0] [1] [] []

variable [Facts₀]

def scatter_S8464x9216_S8464x25x2_S8464x25_n_01_01_2 : ScatterDims S8464x9216 S8464x25x2 S8464x25 where
  updateWindowDims := []
  insertedWindowDims := [0, 1]
  scatterDimsToOperandDims := [0, 1]
  indexVectorDim := 2
  wf := scatter_S8464x9216_S8464x25x2_S8464x25_n_01_01_2_wf
def dot_S64x9216_S9216x8464_S64x8464_1_0_0_1_n_n : DotDims S64x9216 S9216x8464 S64x8464 where
  lhsContracting := [1]
  rhsContracting := [0]
  lhsNonContracting := [0]
  rhsNonContracting := [1]
  lhsBatch := []
  rhsBatch := []
  wf := dot_S64x9216_S9216x8464_S64x8464_1_0_0_1_n_n_wf

class Facts : Prop extends Facts₀ where

variable [Facts]
-- ==== Proof.LibScatterSet.lean ====
/-
  A scatter whose update body returns the update (`x.at[idx].set(v)`), read at an index.

  `Host.scatter d (fun _ b => b) x idx upd` is the left fold, over the update indices in row-major order, of
  "overwrite the element the update lands on". When every update index `j` lands inside the operand, at
  `land j`, and `land` is injective (no two updates meet), the order of the fold does not matter:
  the result holds `upd j` at `land j` and the operand's own element at every index no update lands on.
-/
import Idealize.ShloMosaic.PureOps.Ideal

namespace Idealize.ShloMosaic.ScatterSet

open Idealize.ShloMosaic

section Fold

variable {J I α : Type} [DecidableEq I] (g : J → Option I) (upd : J → α)

/-- Overwrite the element at `o`, if `o` names one, by `v`. -/
def setAt (o : Option I) (v : α) (r : I → α) : I → α :=
  match o with
  | some i => fun i' => if i' = i then v else r i'
  | none => r

theorem setAt_of_ne (o : Option I) (v : α) (r : I → α) (i' : I) (h : o ≠ some i') : setAt o v r i' = r i' := by
  cases o with
  | none => rfl
  | some i =>
    show (if i' = i then v else r i') = r i'
    rw [if_neg]
    rintro rfl
    exact h rfl

theorem setAt_of_eq (v : α) (r : I → α) (i' : I) : setAt (some i') v r i' = v := by
  show (if i' = i' then v else r i') = v
  rw [if_pos rfl]

/-- One step of the fold: update `n` overwrites the element it lands on, if it lands. -/
def setStep (r : I → α) (n : J) : I → α := setAt (g n) (upd n) r

theorem setStep_of_ne (r : I → α) (n : J) (i' : I) (h : g n ≠ some i') : setStep g upd r n i' = r i' :=
  setAt_of_ne _ _ _ _ h

theorem setStep_of_eq (r : I → α) (n : J) (i' : I) (h : g n = some i') : setStep g upd r n i' = upd n := by
  unfold setStep; rw [h]; exact setAt_of_eq _ _ _

/-- An index no update of the list lands on keeps the starting value. -/
theorem foldl_of_forall_ne (L : List J) (x : I → α) (i' : I) (h : ∀ n ∈ L, g n ≠ some i') :
    (L.foldl (setStep g upd) x) i' = x i' := by
  induction L generalizing x with
  | nil => rfl
  | cons a t ih =>
    rw [List.foldl_cons, ih _ (fun n hn => h n (List.mem_cons_of_mem _ hn)),
      setStep_of_ne g upd x a i' (h a (List.mem_cons_self ..))]

/-- An index exactly one update of a duplicate-free list lands on ends holding that update. -/
theorem foldl_of_unique (L : List J) (hL : L.Nodup) (x : I → α) (i' : I) (n : J) (hn : n ∈ L) (hg : g n = some i')
    (huniq : ∀ n' ∈ L, g n' = some i' → n' = n) : (L.foldl (setStep g upd) x) i' = upd n := by
  induction L generalizing x with
  | nil => cases hn
  | cons a t ih =>
    rw [List.foldl_cons]
    rw [List.nodup_cons] at hL
    by_cases ha : a = n
    · subst ha
      rw [foldl_of_forall_ne g upd t _ i' (fun n' hn' h' =>
          hL.1 (huniq n' (List.mem_cons_of_mem _ hn') h' ▸ hn')),
        setStep_of_eq g upd x a i' hg]
    · have hn' : n ∈ t := by
        rcases List.mem_cons.1 hn with h | h
        · exact absurd h.symm ha
        · exact h
      exact ih hL.2 _ hn' (fun n' h1 h2 => huniq n' (List.mem_cons_of_mem _ h1) h2)

end Fold

variable {s si u : Shape} {w : Nat} {α : Type}

/-- The set-scatter is the fold of `setStep` over the update positions in row-major order. -/
theorem scatter_eq_foldl (d : ScatterDims s si u) (x : s.Idx → α) (idx : IVec si w) (upd : u.Idx → α) :
    Host.scatter d (fun _ b => b) x idx upd
      = (List.finRange u.numel).foldl
          (setStep (fun n => d.resultIdx? (u.rowMajor.symm n) idx) (fun n => upd (u.rowMajor.symm n))) x := by
  unfold Host.scatter
  congr 1
  funext r n
  unfold setStep
  show _ = setAt (d.resultIdx? (u.rowMajor.symm n) idx) (upd (u.rowMajor.symm n)) r
  cases d.resultIdx? (u.rowMajor.symm n) idx with
  | none => rfl
  | some i =>
    funext i'
    show (if i' = i then _ else _) = (if i' = i then _ else _)
    by_cases h : i' = i
    · rw [if_pos h]
    · rw [if_neg h]

/-- Where update `j` lands, the scatter holds `upd j`: every update lands (at `land`), no two at one place. -/
theorem scatter_apply_landed (d : ScatterDims s si u) (x : s.Idx → α) (idx : IVec si w) (upd : u.Idx → α)
    (land : u.Idx → s.Idx) (hland : ∀ j, d.resultIdx? j idx = some (land j)) (hinj : Function.Injective land)
    (j : u.Idx) : Host.scatter d (fun _ b => b) x idx upd (land j) = upd j := by
  rw [scatter_eq_foldl]
  have := foldl_of_unique (fun n => d.resultIdx? (u.rowMajor.symm n) idx) (fun n => upd (u.rowMajor.symm n))
    (List.finRange u.numel) (List.nodup_finRange _) x (land j) (u.rowMajor j) (List.mem_finRange _)
    (by simp only [Equiv.symm_apply_apply]; exact hland j)
    (fun n' _ h => by
      rw [hland] at h
      have e := hinj (Option.some.inj h)
      exact (Equiv.symm_apply_eq _).1 e)
  rw [this, Equiv.symm_apply_apply]

/-- Where no update lands, the scatter holds the operand's element. -/
theorem scatter_apply_missed (d : ScatterDims s si u) (x : s.Idx → α) (idx : IVec si w) (upd : u.Idx → α)
    (land : u.Idx → s.Idx) (hland : ∀ j, d.resultIdx? j idx = some (land j)) (i : s.Idx) (hmiss : ∀ j, land j ≠ i) :
    Host.scatter d (fun _ b => b) x idx upd i = x i := by
  rw [scatter_eq_foldl]
  exact foldl_of_forall_ne _ _ _ x i (fun n _ h => by
    rw [hland] at h
    exact hmiss _ (Option.some.inj h))

end Idealize.ShloMosaic.ScatterSet
-- ==== Proof.ScatterLand.lean ====
/-
  Where an update of the reference's scatter lands.

  The scatter's dimension numbers insert both operand axes and read a 2-vector `(row, column)` per update
  `(r, k)` off the last axis of the index array: no window, the start index read signed and not clamped. So
  update `(r, k)` lands on operand element `(idx r k 0, idx r k 1)` whenever both words are in range.
-/
import proofs.«106887_j12618613916213_1_alg».proof.ReferenceIdeal
import Idealize.ShloMosaic.Lib.ValueIdx

noncomputable section

namespace Cert.ReferenceIdeal.Conv

open Cert.ReferenceIdeal Idealize.ShloMosaic Idealize.ShloMosaic.ValueIdx

variable [Facts]
open Facts₀ Facts

/-- The scatter's dimension numbers. -/
abbrev dS := scatter_S8464x9216_S8464x25x2_S8464x25_n_01_01_2

/-- The start on the operand's row axis is the index array's word `(r, k, 0)`, read signed. -/
theorem start_row (j : S8464x25.Idx) (idx : IVec S8464x25x2 32) :
    dS.start j idx 0 = (idx (ix3 (j 0) (j 1) 0)).toInt := by
  unfold ScatterDims.start
  rw [dif_pos (by show (0 : Fin 2) ∈ ([0, 1] : List (Fin 2)); decide)]
  congr 2
  funext b
  match b with
  | ⟨0, _⟩ => rfl
  | ⟨1, _⟩ => rfl
  | ⟨2, _⟩ => rfl

/-- The start on the operand's column axis is the word `(r, k, 1)`, read signed. -/
theorem start_col (j : S8464x25.Idx) (idx : IVec S8464x25x2 32) :
    dS.start j idx 1 = (idx (ix3 (j 0) (j 1) 1)).toInt := by
  unfold ScatterDims.start
  rw [dif_pos (by show (1 : Fin 2) ∈ ([0, 1] : List (Fin 2)); decide)]
  congr 2
  funext b
  match b with
  | ⟨0, _⟩ => rfl
  | ⟨1, _⟩ => rfl
  | ⟨2, _⟩ => rfl

/-- Both operand axes are inserted: an update is one element, its window coordinate zero. -/
theorem window_zero (j : S8464x25.Idx) (a : Fin S8464x9216.rank) : dS.window j a = 0 := by
  have hk : dS.sKept = [] := by
    show S8464x9216.kept ([0, 1] : List (Fin 2)) = []
    decide
  unfold ScatterDims.window
  rw [dif_neg (by rw [hk]; exact List.not_mem_nil)]

/-- Update `j = (r, k)` lands on `(a, b)` when the index array holds the words `a` and `b` for it, in range. -/
theorem resultIdx_eq (j : S8464x25.Idx) (idx : IVec S8464x25x2 32) (a : Fin 8464) (b : Fin 9216)
    (h0 : (idx (ix3 (j 0) (j 1) 0)).toInt = (a.val : Int)) (h1 : (idx (ix3 (j 0) (j 1) 1)).toInt = (b.val : Int)) :
    dS.resultIdx? j idx = some (ix2 a b) := by
  have hs : ∀ x : Fin S8464x9216.rank, dS.start j idx x + (dS.window j x : Int) = (((ix2 a b : S8464x9216.Idx) x).val : Int) := by
    intro x
    rw [window_zero]
    match x with
    | ⟨0, _⟩ =>
      show dS.start j idx 0 + ((0 : ℕ) : Int) = ((a.val : ℕ) : Int)
      rw [start_row, h0]; simp
    | ⟨1, _⟩ =>
      show dS.start j idx 1 + ((0 : ℕ) : Int) = ((b.val : ℕ) : Int)
      rw [start_col, h1]; simp
  unfold ScatterDims.resultIdx?
  rw [dif_pos (fun x => by
    rw [hs]
    exact ⟨Int.natCast_nonneg _, by exact_mod_cast ((ix2 a b : S8464x9216.Idx) x).isLt⟩)]
  congr 1
  funext x
  apply Fin.ext
  show (dS.start j idx x + (dS.window j x : Int)).toNat = _
  rw [hs]
  simp

end Cert.ReferenceIdeal.Conv

end
-- ==== Proof.RefIndex.lean ====
/-
  The index array the reference scatters through.

  Its word `(r, k, 0)` is the row `r` itself and its word `(r, k, 1)` is the column
  `96·(r / 92 + k / 5) + (r % 92 + k % 5)`: the two coordinate grids added, scaled and flattened, then passed
  through the wrap of negative indices (`select (i < 0) (i + n) i`), which does nothing to a small non-negative word.
-/
import proofs.«106887_j12618613916213_1_alg».proof.Proof.Gen.ReferenceIdeal.Read
import Idealize.ShloMosaic.Lib.StableHlo.Predicate
import Idealize.ShloMosaic.Lib.ValueIdx
import Idealize.ShloMosaic.Lib.Pipeline.Value

noncomputable section

namespace Cert.ReferenceIdeal.Conv

open Cert.ReferenceIdeal Cert.ReferenceIdeal.Read Idealize.ShloMosaic Idealize.ShloMosaic.ValueIdx
open Idealize.ShloMosaic.StableHlo.Predicate

variable {F : FTy → Type} [FloatOps F] [Facts]
open Facts₀ Facts

/-- The wrap of a negative index leaves a word below 2³¹ alone. -/
theorem wrap_small (a n : BitVec 32) (ha : a.toNat < 2 ^ 31) :
    Scalar.select (IntOp.cmpi .slt a 0#32) (IntOp.addi a n) a = a := by
  have hz : IntOp.cmpi .slt a 0#32 = 0#1 := eq_zero_of_ne_one (fun h => by
    have := (slt_iff_toNat ha (by decide)).1 h
    simp at this)
  rw [hz, select_zero]

/-- The row word: update `(r, k)` scatters into row `r`. -/
theorem rowWord (r : Fin 8464) (k : Fin 25) :
    val_main_v40 (F := F) (ix3 r k (0 : Fin 2)) = BitVec.ofNat 32 r.val := by
  unfold val_main_v40
  rw [concatenate_pair_apply_left (t := S8464x25x2) (s₁ := S8464x25x1) (s₂ := S8464x25x1) (2 : Fin 3) _ _
    concatenates_S8464x25x1_S8464x25x1_S8464x25x2_d2
    (ix3 r k (0 : Fin 2) : S8464x25x2.Idx) rfl (ix3 r k (0 : Fin 1) : S8464x25x1.Idx) (fun b => by
      match b with
      | ⟨0, _⟩ => rfl
      | ⟨1, _⟩ => rfl
      | ⟨2, _⟩ => rfl)]
  rw [val_main_v38_apply, val_main_v37_apply, val_main_v31_apply, val_main_v28_apply, val_main_v27_apply,
    val_main_c_0_apply, val_main_v30_apply, val_main_v23_apply, val_main_v22_apply]
  exact wrap_small _ _ (by
    show (BitVec.ofNat 32 r.val).toNat < 2 ^ 31
    rw [BitVec.toNat_ofNat]; have := r.isLt; omega)

/-- The flattened grid sum at `(r, k)`, before the wrap. -/
theorem gridWord (r : Fin 8464) (k : Fin 25) :
    val_main_v21 (F := F) (ix2 r k)
      = BitVec.ofNat 32 ((r.val / 92 + k.val / 5) * 96 + (r.val % 92 + k.val % 5)) := by
  rw [val_main_v21_apply, val_main_v20_apply, val_main_v14_apply, val_main_v12_apply, val_main_v19_apply,
    val_main_v10_apply, val_main_v11_apply, val_main_v13_apply, val_main_v17_apply, val_main_v18_apply,
    val_main_v8_apply, val_main_v9_apply, val_main_c_apply, val_main_v15_apply, val_main_v16_apply,
    val_main_v2_apply, val_main_v6_apply, val_main_v3_apply, val_main_v7_apply,
    val_main_v0_apply, val_main_v4_apply, val_main_v1_apply, val_main_v5_apply]
  have hr : r.val < 8464 := r.isLt
  have hk : k.val < 25 := k.isLt
  have h1 : (r.val * 25 + k.val) / 2300 = r.val / 92 := by omega
  have h2 : (r.val * 25 + k.val) / 25 % 92 = r.val % 92 := by omega
  have h3 : (r.val * 25 + k.val) / 5 % 5 = k.val / 5 := by omega
  have h4 : (r.val * 25 + k.val) % 5 = k.val % 5 := by omega
  show IntOp.addi (IntOp.muli (IntOp.addi (BitVec.ofNat 32 ((r.val * 25 + k.val) / 2300))
        (BitVec.ofNat 32 ((r.val * 25 + k.val) / 5 % 5))) 96#32)
      (IntOp.addi (BitVec.ofNat 32 ((r.val * 25 + k.val) / 25 % 92)) (BitVec.ofNat 32 ((r.val * 25 + k.val) % 5))) = _
  rw [h1, h2, h3, h4]
  simp only [IntOp.addi, IntOp.muli, ← BitVec.ofNat_add, ← BitVec.ofNat_mul]

/-- The column word: update `(r, k)` scatters into the column its tap reads. -/
theorem colWord (r : Fin 8464) (k : Fin 25) :
    val_main_v40 (F := F) (ix3 r k (1 : Fin 2))
      = BitVec.ofNat 32 ((r.val / 92 + k.val / 5) * 96 + (r.val % 92 + k.val % 5)) := by
  unfold val_main_v40
  rw [concatenate_pair_apply_right (t := S8464x25x2) (s₁ := S8464x25x1) (s₂ := S8464x25x1) (2 : Fin 3) _ _
    concatenates_S8464x25x1_S8464x25x1_S8464x25x2_d2
    (ix3 r k (1 : Fin 2) : S8464x25x2.Idx) rfl rfl (ix3 r k (0 : Fin 1) : S8464x25x1.Idx) (fun b hb => by
      match b with
      | ⟨0, _⟩ => rfl
      | ⟨1, _⟩ => rfl
      | ⟨2, _⟩ => exact absurd rfl hb) rfl]
  rw [val_main_v39_apply, val_main_v36_apply, val_main_v33_apply, val_main_v32_apply, val_main_c_2_apply,
    val_main_v35_apply]
  have e : idx_main_v39 (ix3 r k (0 : Fin 1)) = ix2 r k := funext fun a => by
    match a with
    | ⟨0, _⟩ => rfl
    | ⟨1, _⟩ => rfl
  rw [e, gridWord]
  have hr : r.val < 8464 := r.isLt
  have hk : k.val < 25 := k.isLt
  have hq : r.val / 92 < 92 := by omega
  have hN : (r.val / 92 + k.val / 5) * 96 + (r.val % 92 + k.val % 5) < 9216 := by omega
  exact wrap_small _ _ (by
    rw [BitVec.toNat_ofNat, Nat.mod_eq_of_lt (by omega)]; omega)

end Cert.ReferenceIdeal.Conv

end
-- ==== Proof.ConvSpec.lean ====
/-
  The specification both programs are measured against: a 5×5 "valid" correlation of each 96×96 image.

  An input row `x b` is a 96×96 image laid out flat (pixel `(p, q)` at position `96·p + q`), the result row
  `b` a 92×92 image laid out flat (pixel `(oi, oj)` at position `r = 92·oi + oj`). Output pixel `r` is
  `∑ ki kj, w ki kj · x b (col r ki kj)`, where `col r ki kj = 96·(oi + ki) + (oj + kj)` is the flat position of
  the input pixel the tap `(ki, kj)` reads.
-/
import Idealize.ShloMosaic.Lib.ValueIdx

noncomputable section

namespace Cert.Conv

open Idealize.ShloMosaic Idealize.ShloMosaic.ValueIdx

/-- The flat position in the 96×96 image of the pixel that tap `(ki, kj)` reads for output position `r`. -/
def col (r : Fin 8464) (ki kj : Fin 5) : Fin 9216 :=
  ⟨(r.val / 92 + ki.val) * 96 + (r.val % 92 + kj.val), by
    have := r.isLt; have := ki.isLt; have := kj.isLt; omega⟩

theorem col_val (r : Fin 8464) (ki kj : Fin 5) :
    (col r ki kj).val = (r.val / 92 + ki.val) * 96 + (r.val % 92 + kj.val) := rfl

/-- For one output position the 25 taps read 25 different input positions. -/
theorem col_injective (r : Fin 8464) : Function.Injective (fun p : Fin 5 × Fin 5 => col r p.1 p.2) := by
  rintro ⟨ki, kj⟩ ⟨ki', kj'⟩ h
  have h' : (r.val / 92 + ki.val) * 96 + (r.val % 92 + kj.val)
      = (r.val / 92 + ki'.val) * 96 + (r.val % 92 + kj'.val) := congrArg Fin.val h
  have := r.isLt; have := ki.isLt; have := kj.isLt; have := ki'.isLt; have := kj'.isLt
  have e1 : ki.val = ki'.val := by omega
  have e2 : kj.val = kj'.val := by omega
  exact Prod.ext (Fin.ext e1) (Fin.ext e2)

/-- The correlation, index by index, on the extended reals. -/
def conv (x : (⟨2, ![64, 9216]⟩ : Shape).Idx → EReal) (w : (⟨2, ![5, 5]⟩ : Shape).Idx → EReal) :
    (⟨2, ![64, 8464]⟩ : Shape).Idx → EReal :=
  fun i => ∑ ki : Fin 5, ∑ kj : Fin 5, w (ix2 ki kj) * x (ix2 (i 0) (col (i 1) ki kj))

end Cert.Conv

end
-- ==== Proof.RefValue.lean ====
/-
  The reference computes the correlation.

  Its matrix `W` (8464 × 9216) is the zero matrix with the 25 taps scattered into each row `r`, tap `(ki, kj)` at
  column `col r ki kj`. Update `(r, k)` lands on `(r, col r (k / 5) (k % 5))`: always in range, and no two
  updates on one element, so `W r (col r ki kj) = w ki kj` and `W r c = 0` for every other column. Row `r` of
  `x · Wᵀ` is then a sum over 9216 columns of which only the 25 tapped ones are non-zero (a product with the zero
  entry vanishes on the extended reals too): the sum over the taps.
-/
import proofs.«106887_j12618613916213_1_alg».proof.Proof.Gen.ReferenceIdeal.Read
import proofs.«106887_j12618613916213_1_alg».proof.Proof.LibScatterSet
import proofs.«106887_j12618613916213_1_alg».proof.Proof.ScatterLand
import proofs.«106887_j12618613916213_1_alg».proof.Proof.RefIndex
import proofs.«106887_j12618613916213_1_alg».proof.Proof.ConvSpec
import Idealize.ShloMosaic.PureOps.Ideal.Laws
import Idealize.ShloMosaic.Lib.StableHlo.Predicate

noncomputable section

namespace Cert.ReferenceIdeal.Conv

open Cert.ReferenceIdeal Cert.ReferenceIdeal.Read Idealize.ShloMosaic Idealize.ShloMosaic.ValueIdx
open Idealize.ShloMosaic.StableHlo.Predicate Idealize.ShloMosaic.ScatterSet Cert.Conv

variable [Facts]
open Facts₀ Facts

/-- Tap number `k = 5·ki + kj` split into its row `ki` … -/
def tapRow (k : Fin 25) : Fin 5 := ⟨k.val / 5, by have := k.isLt; omega⟩
/-- … and its column `kj`. -/
def tapCol (k : Fin 25) : Fin 5 := ⟨k.val % 5, by omega⟩
/-- Tap `(ki, kj)` has number `5·ki + kj`. -/
def tapNo (ki kj : Fin 5) : Fin 25 := ⟨ki.val * 5 + kj.val, by have := ki.isLt; have := kj.isLt; omega⟩

theorem tapRow_tapNo (ki kj : Fin 5) : tapRow (tapNo ki kj) = ki :=
  Fin.ext (by show (ki.val * 5 + kj.val) / 5 = ki.val; have := kj.isLt; omega)
theorem tapCol_tapNo (ki kj : Fin 5) : tapCol (tapNo ki kj) = kj :=
  Fin.ext (by show (ki.val * 5 + kj.val) % 5 = kj.val; have := kj.isLt; omega)

/-- Where update `(r, k)` of the scatter lands: row `r`, the column tap `k` reads. -/
def land (j : S8464x25.Idx) : S8464x9216.Idx :=
  ix2 (n0 := 8464) (n1 := 9216) (j 0) (col (j 0) (tapRow (j 1)) (tapCol (j 1)))

theorem land_spec (j : S8464x25.Idx) :
    dS.resultIdx? j (val_main_v40 (F := Ideal)) = some (land j) := by
  have hr : (j 0).val < 8464 := (j 0).isLt
  have hk : (j 1).val < 25 := (j 1).isLt
  refine resultIdx_eq j _ (j 0) (col (j 0) (tapRow (j 1)) (tapCol (j 1))) ?_ ?_
  · rw [rowWord (F := Ideal) (j 0) (j 1)]
    exact toInt_ofNat_small _ (by omega)
  · rw [colWord (F := Ideal) (j 0) (j 1)]
    exact toInt_ofNat_small _ (by
      have hq : (j 0).val / 92 < 92 := by omega
      omega)

theorem land_injective : Function.Injective land := by
  intro j j' h
  have h0 : j 0 = j' 0 := congrFun h 0
  have h1 : col (j 0) (tapRow (j 1)) (tapCol (j 1)) = col (j' 0) (tapRow (j' 1)) (tapCol (j' 1)) := congrFun h 1
  rw [← h0] at h1
  have h2 := col_injective (j 0) (a₁ := (tapRow (j 1), tapCol (j 1))) (a₂ := (tapRow (j' 1), tapCol (j' 1))) h1
  have e1 : (j 1).val / 5 = (j' 1).val / 5 := congrArg Fin.val (congrArg Prod.fst h2)
  have e2 : (j 1).val % 5 = (j' 1).val % 5 := congrArg Fin.val (congrArg Prod.snd h2)
  have h1' : j 1 = j' 1 := Fin.ext (by omega)
  rw [eq_ix2 j, eq_ix2 j', h0, h1']

/-- The scattered matrix holds tap `(ki, kj)` at `(r, col r ki kj)`. -/
theorem W_tap (x1 : (⟨S5x5, .f32⟩ : BufTy).Contents (Elt Ideal)) (r : Fin 8464) (ki kj : Fin 5) :
    val_main_v41 (F := Ideal) x1 (ix2 r (col r ki kj)) = x1 (ix2 ki kj) := by
  have hl : land (ix2 r (tapNo ki kj)) = ix2 r (col r ki kj) := by
    show ix2 r (col r (tapRow (tapNo ki kj)) (tapCol (tapNo ki kj))) = _
    rw [tapRow_tapNo, tapCol_tapNo]
  unfold val_main_v41
  rw [← hl, scatter_apply_landed dS _ _ _ land land_spec land_injective,
    val_main_v25_apply, val_main_v24_apply]
  congr 1
  funext a
  match a with
  | ⟨0, _⟩ => exact congrArg Fin.val (tapRow_tapNo ki kj) |> Fin.ext
  | ⟨1, _⟩ => exact congrArg Fin.val (tapCol_tapNo ki kj) |> Fin.ext

/-- … and zero at every column of row `r` no tap reads. -/
theorem W_zero (x1 : (⟨S5x5, .f32⟩ : BufTy).Contents (Elt Ideal)) (r : Fin 8464) (c : Fin 9216)
    (hc : ∀ ki kj : Fin 5, col r ki kj ≠ c) : val_main_v41 (F := Ideal) x1 (ix2 r c) = 0 := by
  unfold val_main_v41
  rw [scatter_apply_missed dS _ _ _ land land_spec (ix2 r c) (fun j h => by
      have h0 : j 0 = r := congrFun h 0
      have h1 : col (j 0) (tapRow (j 1)) (tapCol (j 1)) = c := congrFun h 1
      rw [h0] at h1
      exact hc _ _ h1),
    val_main_v26_apply, val_main_cst_apply]
  exact Ideal.ofBits_zero_f32

/-- THE REFERENCE'S RESULT is the correlation of its arguments. -/
theorem ref_eq_conv (x0 : (⟨S64x9216, .f32⟩ : BufTy).Contents (Elt Ideal)) (x1 : (⟨S5x5, .f32⟩ : BufTy).Contents (Elt Ideal)) :
    val_main_v43 (F := Ideal) x0 x1 = conv x0 x1 := by
  funext i
  obtain ⟨b, r, rfl⟩ : ∃ (b : Fin 64) (r : Fin 8464), i = ix2 b r := ⟨i 0, i 1, eq_ix2 i⟩
  rw [val_main_v43_apply]
  show _ = ∑ ki : Fin 5, ∑ kj : Fin 5, x1 (ix2 ki kj) * x0 (ix2 b (col r ki kj))
  have hl : ∀ c : Fin 9216, lidx_main_v43 (ix2 b r) c = ix2 b c := fun c => funext fun a => by
    match a with
    | ⟨0, _⟩ => rfl
    | ⟨1, _⟩ => rfl
  have hr : ∀ c : Fin 9216, val_main_v42 (F := Ideal) x1 (ridx_main_v43 (ix2 b r) c) = val_main_v41 (F := Ideal) x1 (ix2 r c) := fun c => by
    rw [val_main_v42_apply]
    congr 1
    funext a
    match a with
    | ⟨0, _⟩ => rfl
    | ⟨1, _⟩ => rfl
  simp only [hl, hr]
  rw [← Fintype.sum_of_injective (fun p : Fin 5 × Fin 5 => col r p.1 p.2) (col_injective r)
    (fun p : Fin 5 × Fin 5 => x1 (ix2 p.1 p.2) * x0 (ix2 b (col r p.1 p.2)))
    (fun c : Fin 9216 => x0 (ix2 b c) * val_main_v41 (F := Ideal) x1 (ix2 r c))
    (fun c hc => by
      rw [W_zero x1 r c (fun ki kj h => hc ⟨(ki, kj), h⟩), mul_zero])
    (fun p => by
      show _ = x0 (ix2 b (col r p.1 p.2)) * val_main_v41 (F := Ideal) x1 (ix2 r (col r p.1 p.2))
      rw [W_tap, mul_comm]),
    Fintype.sum_prod_type]

end Cert.ReferenceIdeal.Conv

end
-- ==== Proof.KernelBody.lean ====
/-
  What the kernel body leaves in the output block, index by index.

  The body starts from the zero block and adds, tap by tap in row-major order, the tap's value (a 1×1 load of the
  5×5 block, splat) times the 64×92×92 slice of the image block shifted by the tap's offsets. At block index
  `(b, oi, oj)` that is `0 + ∑ ki kj, w ki kj · x (b, oi + ki, oj + kj)`, the additions associated to the left:
  on the extended reals the sum over the taps.
-/
import proofs.«106887_j12618613916213_1_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

namespace Cert.KernelIdeal.Conv

open Cert.KernelIdeal Cert.KernelIdeal.Gen Idealize.ShloMosaic Idealize.ShloMosaic.ValueIdx

variable [Facts]
open Facts₀ Facts

/-- The 64×92×92 rectangle of the image block at offsets `(0, p, q)` places `(b, oi, oj)` on pixel `(oi + p, oj + q)` of image `b`. -/
theorem idx_shift (p q : ℕ)
    (inb : ∀ a, (![0, p, q] : Fin 3 → Nat) a + S64x92x92.size a ≤ S64x96x96.size a) (b : Fin 64) (oi oj : Fin 92) :
    (Rect.unit (s := S64x96x96) ![0, p, q] S64x92x92.size inb).idx (ix3 b oi oj)
      = ix3 b (⟨oi.val + p, by have h := inb 1; have := oi.isLt; change p + 92 ≤ 96 at h; omega⟩ : Fin 96)
          (⟨oj.val + q, by have h := inb 2; have := oj.isLt; change q + 92 ≤ 96 at h; omega⟩ : Fin 96) := by
  funext a
  apply Fin.ext
  match a with
  | ⟨0, _⟩ => show 0 + 1 * b.val = b.val; omega
  | ⟨1, _⟩ => show p + 1 * oi.val = oi.val + p; omega
  | ⟨2, _⟩ => show q + 1 * oj.val = oj.val + q; omega

/-- The 1×1 rectangle of the tap block at `(p, q)` places its one index on tap `(p, q)`. -/
theorem idx_tap (p q : ℕ)
    (inb : ∀ a, (![p, q] : Fin 2 → Nat) a + S1x1.size a ≤ S5x5.size a)
    (h : ∀ a, (![0, 0] : Fin 2 → Nat) a < S1x1.size a) :
    (Rect.unit (s := S5x5) ![p, q] S1x1.size inb).idx (fun a => ⟨(![0, 0] : Fin 2 → Nat) a, h a⟩)
      = ix2 (⟨p, by have h := inb 0; change p + 1 ≤ 5 at h; omega⟩ : Fin 5) (⟨q, by have h := inb 1; change q + 1 ≤ 5 at h; omega⟩ : Fin 5) := by
  funext a
  apply Fin.ext
  match a with
  | ⟨0, _⟩ => show p + 1 * 0 = p; omega
  | ⟨1, _⟩ => show q + 1 * 0 = q; omega

theorem hz3 : (![0, 0, 0] : Fin 3 → Nat) = fun _ => 0 := funext fun a => by fin_cases a <;> rfl

/-- THE BODY'S RESULT at a block index: the sum over the 25 taps. -/
theorem out_apply (x0 : Vec Ideal S64x96x96 .f32) (x1 : Vec Ideal S5x5 .f32) (b : Fin 64) (oi oj : Fin 92) :
    out0_2 (F := Ideal) x0 x1 (ix3 b oi oj)
      = ∑ ki : Fin 5, ∑ kj : Fin 5, x1 (ix2 ki kj)
          * x0 (ix3 b (⟨oi.val + ki.val, by have := oi.isLt; have := ki.isLt; omega⟩ : Fin 96)
              (⟨oj.val + kj.val, by have := oj.isLt; have := kj.isLt; omega⟩ : Fin 96)) := by
  unfold out0_2
  rw [View.canon_unit_zero hz3]
  simp only [k0_pay1, k0_pay2, k0_pay3, k0_pay4, k0_pay5, k0_pay6, k0_pay7, k0_pay8, k0_pay9, k0_pay10, k0_pay11,
    k0_pay12, k0_pay13, k0_pay14, k0_pay15, k0_pay16, shapeCast_self, addf_apply, mulf_apply, broadcast_apply,
    View.ld, extractAt, idx_shift, idx_tap]
  simp only [Fin.sum_univ_five]
  simp only [Scalar.ofBits, Ideal.ofBits_def, Ideal.ofBits_zero_f32, zero_add, add_assoc]
  rfl

end Cert.KernelIdeal.Conv

end
-- ==== Proof.KernelValue.lean ====
/-
  The kernel's program computes the correlation.

  @main reshapes each flat 9216-pixel row into a 96×96 image, runs the body once (one grid point, every block its
  whole array), and flattens the 64×92×92 result into 64×8464. The body leaves in the output block, at
  `(b, oi, oj)`, the sum over the taps of `w ki kj · image b (oi + ki, oj + kj)`; the one block covers the output
  array; and position `r` of a flattened result row is pixel `(r / 92, r % 92)`, pixel `(p, q)` of an image position
  `96·p + q` of its row. Together: the specification's correlation of the two argument arrays.
-/
import proofs.«106887_j12618613916213_1_alg».proof.Proof.Gen.KernelIdeal.Frame
import proofs.«106887_j12618613916213_1_alg».proof.Proof.KernelBody
import proofs.«106887_j12618613916213_1_alg».proof.Proof.ConvSpec
import Idealize.ShloMosaic.Lib.Pipeline.Value
import Idealize.ShloMosaic.Lib.StableHlo.Run
import Idealize.ShloMosaic.Lib.ValueIdx

set_option maxRecDepth 16384

noncomputable section

namespace Cert.KernelIdeal.Conv

open Cert.KernelIdeal Cert.KernelIdeal.Gen Idealize.ShloMosaic Idealize.ShloMosaic.TcCoe Idealize.SL.Sem
open Idealize.ShloMosaic.ValueIdx Cert.Conv
open Idealize.ShloMosaic.Pipeline (Dat)

variable (m : (ℓ : Loc nD τ sig) → Buf (Elt Ideal) ℓ) (ρ : Dev nD → PrngReg)

/-- The image array as the region finds it, -/
abbrev img (c : Dev nD) : Vec Ideal S64x96x96 .f32 := V m c main_v0
/-- the tap array as the region finds it, -/
abbrev taps (c : Dev nD) : Vec Ideal S5x5 .f32 := V m c main_arg1
/-- and the two arguments as launched. -/
abbrev xarg (c : Dev nD) : Vec Ideal S64x9216 .f32 := m ((c : Thread nD τ).loc main_arg0)
abbrev warg (c : Dev nD) : Vec Ideal S5x5 .f32 := m ((c : Thread nD τ).loc main_arg1)

/-- Pixel `(p, q)` of image `b` is position `96·p + q` of argument row `b`: the host reshape before the region. -/
theorem img_apply (c : Dev nD) (b : Fin 64) (p q : Fin 96) :
    img m c (ix3 b p q) = xarg m c (ix2 b (⟨p.val * 96 + q.val, by have := p.isLt; have := q.isLt; omega⟩ : Fin 9216)) := by
  have e : img m c = shapeCast S64x96x96 (xarg m c) shapeCasts_S64x9216_S64x96x96 := by
    show StableHlo.after hostOps0 (fun b => m (c, b)) (Proc.devRef .tc main_v0) = _
    after_results
    rfl
  rw [e]
  exact shapeCast_apply _ _ _ _ (by
    rewrite [Shape.rowMajor_val_two, Shape.rowMajor_val_three]
    show b.val * 9216 + (p.val * 96 + q.val) = (b.val * 96 + p.val) * 96 + q.val
    omega)

/-- What the output array ends holding: each image correlated with the taps. -/
def G (c : Dev nD) : Vec Ideal S64x92x92 .f32 := fun y =>
  ∑ ki : Fin 5, ∑ kj : Fin 5, taps m c (ix2 ki kj)
    * img m c (ix3 (y 0) (⟨(y 1).val + ki.val, by have h : (y 1).val < 92 := (y 1).isLt; have := ki.isLt; omega⟩ : Fin 96)
        (⟨(y 2).val + kj.val, by have h : (y 2).val < 92 := (y 2).isLt; have := kj.isLt; omega⟩ : Fin 96))

/-- Every window's block index is zero on every axis at the grid's one point: each block is its whole array. -/
theorem idx_zero : ∀ t : Fin cfg0.N,
    win0_0.index t (0 : Fin 3) = 0 ∧ win0_0.index t (1 : Fin 3) = 0 ∧ win0_0.index t (2 : Fin 3) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = 0 :=
  (by decide +kernel : ∀ t : Fin grid0.N, _)

/-- The image window's block is the image array. -/
theorem iblk0_apply (c : Dev nD) (t : Fin cfg0.N) (y : S64x96x96.Idx) : iblk m c 0 t y = img m c y := by
  obtain ⟨e0, e1, e2, -⟩ := idx_zero t
  show V m c main_v0 (((cfg0.win 0).blk t).view.emb y) = V m c main_v0 y
  congr 1
  funext a; apply Fin.ext
  match a with
  | ⟨0, _⟩ => show win0_0.index t (0 : Fin 3) * 64 + 1 * (y 0).val = (y 0).val; rw [e0]; omega
  | ⟨1, _⟩ => show win0_0.index t (1 : Fin 3) * 96 + 1 * (y 1).val = (y 1).val; rw [e1]; omega
  | ⟨2, _⟩ => show win0_0.index t (2 : Fin 3) * 96 + 1 * (y 2).val = (y 2).val; rw [e2]; omega

/-- The tap window's block is the tap array. -/
theorem iblk1_apply (c : Dev nD) (t : Fin cfg0.N) (y : S5x5.Idx) : iblk m c 1 t y = taps m c y := by
  obtain ⟨-, -, -, e0, e1, -⟩ := idx_zero t
  show V m c main_arg1 (((cfg0.win 1).blk t).view.emb y) = V m c main_arg1 y
  congr 1
  funext a; apply Fin.ext
  match a with
  | ⟨0, _⟩ => show win0_1.index t (0 : Fin 2) * 5 + 1 * (y 0).val = (y 0).val; rw [e0]; omega
  | ⟨1, _⟩ => show win0_1.index t (1 : Fin 2) * 5 + 1 * (y 1).val = (y 1).val; rw [e1]; omega

/-- The output window's block places a block index on the same array index. -/
theorem emb2 (t : Fin cfg0.N) (y : S64x92x92.Idx) : ((cfg0.win 2).blk t).view.emb y = y := by
  obtain ⟨-, -, -, -, -, e0, e1, e2⟩ := idx_zero t
  funext a; apply Fin.ext
  match a with
  | ⟨0, _⟩ => show win0_2.index t (0 : Fin 3) * 64 + 1 * (y 0).val = (y 0).val; rw [e0]; omega
  | ⟨1, _⟩ => show win0_2.index t (1 : Fin 3) * 92 + 1 * (y 1).val = (y 1).val; rw [e1]; omega
  | ⟨2, _⟩ => show win0_2.index t (2 : Fin 3) * 92 + 1 * (y 2).val = (y 2).val; rw [e2]; omega

/-- WHAT THE POINT WRITES BACK is the block of `G`. -/
theorem flushed_eq (c : Dev nD) (t : Fin cfg0.N) :
    (dats m 0 c).flushed 2 t = ((cfg0.win 2).blk t).view.read (Elt Ideal) (G m c) := by
  show (cfg0.win 2).cut (grid0.coords t) ((dats m 0 c).after 2 t) = _
  rw [after0_2]
  funext y
  show out0_2 (F := Ideal) (iblk m c 0 t) (iblk m c 1 t) y = G m c (((cfg0.win 2).blk t).view.emb y)
  rw [emb2]
  obtain ⟨b, oi, oj, rfl⟩ : ∃ (b : Fin 64) (oi oj : Fin 92), y = ix3 b oi oj := ⟨y 0, y 1, y 2, eq_ix3 y⟩
  refine (out_apply (iblk m c 0 t) (iblk m c 1 t) b oi oj).trans ?_
  unfold G
  refine Finset.sum_congr rfl fun ki _ => Finset.sum_congr rfl fun kj _ => ?_
  rw [iblk0_apply, iblk1_apply]

/-- Every index of the output array is in the one point's block. -/
theorem mem_blk (t : Fin cfg0.N) (i : S64x92x92.Idx) : i ∈ ((cfg0.win 2).blk t).view.set := by
  obtain ⟨-, -, -, -, -, e0, e1, e2⟩ := idx_zero t
  show i ∈ ((View.whole main_v1).slice (win0_2.rect t)).set
  rw [View.set_slice_whole, Rect.mem_set_unit]
  intro a
  match a with
  | ⟨0, _⟩ =>
    show win0_2.index t (0 : Fin 3) * 64 ≤ (i 0).val ∧ (i 0).val < win0_2.index t (0 : Fin 3) * 64 + 64
    rw [e0]; have : (i 0).val < 64 := (i 0).isLt; omega
  | ⟨1, _⟩ =>
    show win0_2.index t (1 : Fin 3) * 92 ≤ (i 1).val ∧ (i 1).val < win0_2.index t (1 : Fin 3) * 92 + 92
    rw [e1]; have : (i 1).val < 92 := (i 1).isLt; omega
  | ⟨2, _⟩ =>
    show win0_2.index t (2 : Fin 3) * 92 ≤ (i 2).val ∧ (i 2).val < win0_2.index t (2 : Fin 3) * 92 + 92
    rw [e2]; have : (i 2).val < 92 := (i 2).isLt; omega

/-- THE OUTPUT ARRAY after the region is `G`. -/
theorem final (c : Dev nD) : (dats m 0 c).arrAt 2 cfg0.N = G m c :=
  (dats m 0 c).arrAt_eq_of_cover 2 (G m c) (fun t _ => flushed_eq m c t)
    (fun i => ⟨t0_0, flush0_2 t0_0, mem_blk t0_0 i⟩)

/-- THE RESULT, after the host reshape that follows the region, is the correlation of the arguments. -/
theorem result_eq (c : Dev nD) :
    Pipeline.afterTail₀ cfgs (dats m) 0 (V0 m) [hostOps1] c main_v2 = conv (xarg m c) (warg m c) := by
  have e : Pipeline.afterTail₀ cfgs (dats m) 0 (V0 m) [hostOps1] c main_v2
      = shapeCast S64x8464 (G m c) shapeCasts_S64x92x92_S64x8464 := by
    unfold Pipeline.afterTail₀
    show StableHlo.after hostOps1 _ (Proc.devRef .tc main_v2) = _
    after_results
    exact congrArg (fun v => shapeCast S64x8464 v shapeCasts_S64x92x92_S64x8464)
      ((Pipeline.withArrays_arr spec0 launch0.win.arr_inj c _ _ 2).trans (final m c))
  rw [e]
  funext i
  obtain ⟨b, r, rfl⟩ : ∃ (b : Fin 64) (r : Fin 8464), i = ix2 b r := ⟨i 0, i 1, eq_ix2 i⟩
  have hr : r.val < 8464 := r.isLt
  rw [shapeCast_apply (G m c) shapeCasts_S64x92x92_S64x8464 (ix2 b r)
    (ix3 b (⟨r.val / 92, by omega⟩ : Fin 92) (⟨r.val % 92, by omega⟩ : Fin 92)) (by
      rewrite [Shape.rowMajor_val_two, Shape.rowMajor_val_three]
      show (b.val * 92 + r.val / 92) * 92 + r.val % 92 = b.val * 8464 + r.val
      omega)]
  unfold G conv
  refine Finset.sum_congr rfl fun ki _ => Finset.sum_congr rfl fun kj _ => ?_
  have ht : taps m c = warg m c := V_main_arg1 m c
  rw [img_apply, ht]
  rfl

/-- THE RUN: every weakly fair execution ends with the result at the correlation of the arguments, the arguments unchanged. -/
theorem run : θ_run defs (onTc (τ := τ) (main (F := Ideal))) ⟨m, fun _ => 0, ρ⟩ fun r => ∀ c : Dev nD,
      r.2.mem ((c : Thread nD τ).loc main_v2) = conv (xarg m c) (warg m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c)))⟩)
    (run_main m ρ)

end Cert.KernelIdeal.Conv

end
-- ==== Proof.lean ====
/-
  The proof of `Cert.Claim`: a Pallas kernel that correlates each 96×96 image with a 5×5 tap array by 25 shifted,
  scaled additions, against a reference that builds the dense 8464×9216 matrix of that correlation by a scatter and
  multiplies by it.

  Both programs compute, at result index `(b, r)`, the same sum over the 25 taps
  `∑ ki kj, w ki kj · x b (96·(r / 92 + ki) + (r % 92 + kj))` (`Cert.Conv.conv`):
  * the kernel directly — its body adds the taps in row-major order onto the zero block, and sums on the extended reals
    may be regrouped (`Cert.KernelIdeal.Conv.run`);
  * the reference because row `r` of its matrix holds tap `(ki, kj)` at exactly that column and zero elsewhere — the
    scatter's 211600 updates land on pairwise different elements, so the order they are applied in is immaterial —, and
    a product with a zero entry vanishes, so the 9216-term dot product is the 25-term sum
    (`Cert.ReferenceIdeal.Conv.ref_eq_conv`).
  No finiteness of the inputs is used. The three frames are the generated ones (the reference's its generated run with
  the result dropped); the ideal pass rewrote nothing, so `preserves` is trivial.
-/
import proofs.«106887_j12618613916213_1_alg».proof.Defs
import proofs.«106887_j12618613916213_1_alg».proof.Proof.Gen.Kernel
import proofs.«106887_j12618613916213_1_alg».proof.Proof.Gen.Kernel.Skeleton
import proofs.«106887_j12618613916213_1_alg».proof.Proof.Gen.Kernel.Launch
import proofs.«106887_j12618613916213_1_alg».proof.Proof.Gen.Kernel.Points
import proofs.«106887_j12618613916213_1_alg».proof.Proof.Gen.Kernel.Frame
import proofs.«106887_j12618613916213_1_alg».proof.Proof.Gen.KernelIdeal
import proofs.«106887_j12618613916213_1_alg».proof.Proof.Gen.KernelIdeal.Skeleton
import proofs.«106887_j12618613916213_1_alg».proof.Proof.Gen.KernelIdeal.Launch
import proofs.«106887_j12618613916213_1_alg».proof.Proof.Gen.KernelIdeal.Points
import proofs.«106887_j12618613916213_1_alg».proof.Proof.Gen.KernelIdeal.Frame
import proofs.«106887_j12618613916213_1_alg».proof.Proof.Gen.ReferenceIdeal
import proofs.«106887_j12618613916213_1_alg».proof.Proof.Gen.Pre_finite_inputs
import proofs.«106887_j12618613916213_1_alg».proof.Proof.Gen.ReferenceIdeal.Run
import proofs.«106887_j12618613916213_1_alg».proof.Proof.Gen.ReferenceIdeal.Read
import proofs.«106887_j12618613916213_1_alg».proof.Proof.RefValue
import proofs.«106887_j12618613916213_1_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result at the correlation of the (agreeing) arguments. -/
theorem algebraic : Cert.algebraic_KernelIdeal_ReferenceIdeal := by
  intro m ρ m' ρ' _ hagree
  refine ⟨fun c => Cert.Conv.conv (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Conv.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v43_eq, Cert.ReferenceIdeal.Conv.ref_eq_conv, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
